-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S288x262144 : Shape := ⟨2, ![288, 262144]⟩
abbrev S256x32 : Shape := ⟨2, ![256, 32]⟩
abbrev S32 : Shape := ⟨1, ![32]⟩
abbrev S_ : Shape := ⟨0, ![]⟩

class Facts : Prop where
  bcast_S_S288x262144 : S_.BroadcastsInDim S288x262144 (![] : Fin 0 → Fin S288x262144.rank)
  reducesTo_S288x262144_S_d0_1 : S288x262144.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S288x262144 .f32) (main_arg1 : FVec F S256x32 .f32) (main_arg2 : FVec F S32 .f32) : IVec S_ 1 :=
  let main_v0 : FVec F S288x262144 .f32 := Host.absf main_arg0
  let main_cst : FVec F S_ .f32 := constant S_ .f32 0x7F800000#32
  let main_v1 : FVec F S288x262144 .f32 := broadcastInDim S288x262144 ![] bcast_S_S288x262144 main_cst
  let main_v2 : IVec S288x262144 1 := cmpf .olt main_v0 main_v1
  let main_c : IVec S_ 1 := constantI S_ 1 1#1
  let main_v3 : IVec S_ 1 := (fun x v => Host.reduce IntOp.andi x v reducesTo_S288x262144_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S288x262144 : Shape := ⟨2, ![288, 262144]⟩
abbrev S256x32 : Shape := ⟨2, ![256, 32]⟩
abbrev S32 : Shape := ⟨1, ![32]⟩
abbrev S32x256 : Shape := ⟨2, ![32, 256]⟩
abbrev S1x32 : Shape := ⟨2, ![1, 32]⟩
abbrev S288x2048 : Shape := ⟨2, ![288, 2048]⟩
abbrev S256x2048 : Shape := ⟨2, ![256, 2048]⟩
abbrev S32x2048 : Shape := ⟨2, ![32, 2048]⟩
abbrev S2048 : Shape := ⟨1, ![2048]⟩
abbrev S1x2048 : Shape := ⟨2, ![1, 2048]⟩

abbrev nBuf : Space → Nat
  | .hbm => 8
  | .vmem => 7
  | .smem => 0
  | _ => 0

abbrev bufTy : (tb : Table) → Fin (tcTables nBuf tb) → BufTy
  | .hbm, ⟨0, _⟩ => ⟨S288x262144, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S1x32, .f32⟩
  | .hbm, ⟨5, _⟩ => ⟨S256x32, .f32⟩
  | .hbm, ⟨6, _⟩ => ⟨S256x32, .f32⟩
  | .hbm, ⟨7, _⟩ => ⟨S288x262144, .f32⟩
  | .local _ .vmem, ⟨0, _⟩ => ⟨S288x2048, .f32⟩
  | .local _ .vmem, ⟨1, _⟩ => ⟨S288x2048, .f32⟩
  | .local _ .vmem, ⟨2, _⟩ => ⟨S256x32, .f32⟩
  | .local _ .vmem, ⟨3, _⟩ => ⟨S32x256, .f32⟩
  | .local _ .vmem, ⟨4, _⟩ => ⟨S256x32, .f32⟩
  | .local _ .vmem, ⟨5, _⟩ => ⟨S288x2048, .f32⟩
  | .local _ .vmem, ⟨6, _⟩ => ⟨S288x2048, .f32⟩
  | _, _ => ⟨S288x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S288x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x32_S32x256_1_0 : S256x32.Transposes [1, 0] S32x256
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  inb_S288x2048_S256x2048_0_0 : ∀ a, (![0, 0] : Fin 2 → Nat) a + S256x2048.size a ≤ S288x2048.size a
  h_S256x2048 : 0 < S256x2048.numel
  inb_S288x2048_S32x2048_256_0 : ∀ a, (![256, 0] : Fin 2 → Nat) a + S32x2048.size a ≤ S288x2048.size a
  h_S32x2048 : 0 < S32x2048.numel
  inb_S256x32_S256x32_0_0 : ∀ a, (![0, 0] : Fin 2 → Nat) a + S256x32.size a ≤ S256x32.size a
  h_S256x32 : 0 < S256x32.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S256x32_S256x32 : S256x32.ShapeCasts S256x32
  bitsLt_bf16_f32 : FTy.bits .bf16 < FTy.bits .f32
  reduces_S32x2048_S2048 : S32x2048.Reduces [0] S2048
  shapeCasts_S2048_S1x2048 : S2048.ShapeCasts S1x2048
  broadcasts_S1x2048_S256x2048 : S1x2048.Broadcasts S256x2048
  dot_S32x256_S256x2048_S32x2048_1_0_0_1_n_n_wf : DotDims.WF S32x256 S256x2048 S32x2048 [1] [0] [0] [1] [] []
  dot_S256x32_S32x2048_S256x2048_1_0_0_1_n_n_wf : DotDims.WF S256x32 S32x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x2048.size a ≤ S288x262144.size a
  hwx0_0 : ∀ i : grid0.Coords, EltTy.bits .f32 = 32 ∨ (Rect.block (s := S288x262144) S288x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S288x2048.size a ≤ S288x262144.size a
  hwx0_4 : ∀ i : grid0.Coords, EltTy.bits .f32 = 32 ∨ (Rect.block (s := S288x262144) S288x2048.size (cc0_transform_4 i) (hinb0_4 i)).WholeWords (EltTy.packing .f32)

variable [Facts₀]

def dot_S32x256_S256x2048_S32x2048_1_0_0_1_n_n : DotDims S32x256 S256x2048 S32x2048 where
  lhsContracting := [1]
  rhsContracting := [0]
  lhsNonContracting := [0]
  rhsNonContracting := [1]
  lhsBatch := []
  rhsBatch := []
  wf := dot_S32x256_S256x2048_S32x2048_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf

abbrev win0_0 : Pipeline.Window sig grid0 :=
  Pipeline.Window.ofSpec (Memref.whole main_arg0) S288x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S288x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S288x262144 : Shape := ⟨2, ![288, 262144]⟩
abbrev S256x32 : Shape := ⟨2, ![256, 32]⟩
abbrev S32 : Shape := ⟨1, ![32]⟩
abbrev S256x262144 : Shape := ⟨2, ![256, 262144]⟩
abbrev S32x262144 : Shape := ⟨2, ![32, 262144]⟩
abbrev S32x256 : Shape := ⟨2, ![32, 256]⟩
abbrev S_ : Shape := ⟨0, ![]⟩
abbrev S262144 : Shape := ⟨1, ![262144]⟩
abbrev S1x262144 : Shape := ⟨2, ![1, 262144]⟩
abbrev S1x32 : Shape := ⟨2, ![1, 32]⟩

abbrev nBuf : Space → Nat
  | .hbm => 21
  | .vmem => 0
  | .smem => 0
  | _ => 0

abbrev bufTy : (tb : Table) → Fin (tcTables nBuf tb) → BufTy
  | .hbm, ⟨0, _⟩ => ⟨S288x262144, .f32⟩
  | .hbm, ⟨1, _⟩ => ⟨S256x32, .f32⟩
  | .hbm, ⟨2, _⟩ => ⟨S32, .f32⟩
  | .hbm, ⟨3, _⟩ => ⟨S256x262144, .f32⟩
  | .hbm, ⟨4, _⟩ => ⟨S32x262144, .f32⟩
  | .hbm, ⟨5, _⟩ => ⟨S32x256, .f32⟩
  | .hbm, ⟨6, _⟩ => ⟨S32x262144, .f32⟩
  | .hbm, ⟨7, _⟩ => ⟨S_, .f32⟩
  | .hbm, ⟨8, _⟩ => ⟨S262144, .f32⟩
  | .hbm, ⟨9, _⟩ => ⟨S1x262144, .f32⟩
  | .hbm, ⟨10, _⟩ => ⟨S256x262144, .f32⟩
  | .hbm, ⟨11, _⟩ => ⟨S256x262144, .f32⟩
  | .hbm, ⟨12, _⟩ => ⟨S32x262144, .f32⟩
  | .hbm, ⟨13, _⟩ => ⟨S256x262144, .f32⟩
  | .hbm, ⟨14, _⟩ => ⟨S256x262144, .f32⟩
  | .hbm, ⟨15, _⟩ => ⟨S1x32, .f32⟩
  | .hbm, ⟨16, _⟩ => ⟨S256x32, .f32⟩
  | .hbm, ⟨17, _⟩ => ⟨S256x32, .f32⟩
  | .hbm, ⟨18, _⟩ => ⟨S256x262144, .f32⟩
  | .hbm, ⟨19, _⟩ => ⟨S256x262144, .f32⟩
  | .hbm, ⟨20, _⟩ => ⟨S288x262144, .f32⟩
  | _, _ => ⟨S288x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v18 : Ref sig .tc := ⟨.hbm, 20, rfl⟩

abbrev nD : Nat := 1
abbrev τ : Topo := Topo.v7x

variable {F : FTy → Type} [FloatOps F]

class Facts₀ : Prop where
  slices_S288x262144_S256x262144_0_0 : S288x262144.Slices ![0, 0] S256x262144
  slices_S288x262144_S32x262144_256_0 : S288x262144.Slices ![256, 0] S32x262144
  transposes_S256x32_S32x256_1_0 : S256x32.Transposes [1, 0] S32x256
  reducesTo_S32x262144_S262144_d0 : S32x262144.ReducesTo [0] S262144
  h_S_ : 0 < S_.numel
  bcast_S262144_S1x262144_1 : S262144.BroadcastsInDim S1x262144 (![1] : Fin 1 → Fin S1x262144.rank)
  bcast_S1x262144_S256x262144_0_1 : S1x262144.BroadcastsInDim S256x262144 (![0, 1] : Fin 2 → Fin S256x262144.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  concatenates_S256x262144_S32x262144_S288x262144_d0 : Shape.Concatenates [S256x262144, S32x262144] S288x262144 0
  dot_S32x256_S256x262144_S32x262144_1_0_0_1_n_n_wf : DotDims.WF S32x256 S256x262144 S32x262144 [1] [0] [0] [1] [] []
  dot_S256x32_S32x262144_S256x262144_1_0_0_1_n_n_wf : DotDims.WF S256x32 S32x262144 S256x262144 [1] [0] [0] [1] [] []

variable [Facts₀]

def dot_S32x256_S256x262144_S32x262144_1_0_0_1_n_n : DotDims S32x256 S256x262144 S32x262144 where
  lhsContracting := [1]
  rhsContracting := [0]
  lhsNonContracting := [0]
  rhsNonContracting := [1]
  lhsBatch := []
  rhsBatch := []
  wf := dot_S32x256_S256x262144_S32x262144_1_0_0_1_n_n_wf
def dot_S256x32_S32x262144_S256x262144_1_0_0_1_n_n : DotDims S256x32 S32x262144 S256x262144 where
  lhsContracting := [1]
  rhsContracting := [0]
  lhsNonContracting := [0]
  rhsNonContracting := [1]
  lhsBatch := []
  rhsBatch := []
  wf := dot_S256x32_S32x262144_S256x262144_1_0_0_1_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.TileValue.lean ====
/-
  One tile of the kernel, read at an index.

  A tile holds 2048 columns of the stacked array: 256 signal rows z and 32 coefficient rows p.  With U the 256×32
  factor, Uᵗ its transpose and A the factor scaled column by column, the body stores, at signal row r and column q,

      z(r,q) · (Σₖ p(k,q))  −  Σₖ U(r,k) · ((Σ_d Uᵗ(k,d) · z(d,q)) · p(k,q))  +  Σₖ A(r,k) · p(k,q).

  Over the extended reals the narrowing to bf16 in front of each product is the identity, a product into a zero
  accumulator is the plain sum over the contracted index, and the lane reduction from zero is the plain sum over the
  coefficient rows.
-/
import proofs.«144846_j65944927863381_1_alg».proof.Proof.Gen.KernelIdeal.Skeleton
import proofs.«144846_j65944927863381_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The sum of the 32 coefficient rows at column q. -/
theorem colSum_apply (p : FVec Ideal S32x2048 .f32) (h : S32x2048.Reduces [0] S2048) (hφ : FKind.Formats FTy.f32)
    (hacc : (0x00000000#32 : BitVec 32) = FKind.add.neutral .f32 hφ) (q : Fin 2048) :
    multiReduction .add [0] S2048 p 0x00000000#32 h hφ hacc (ix1 q) = ∑ k : Fin 32, p (ix2 k q) := by
  refine (Ideal.multiReduction_add_single p 0x00000000#32 h hφ hacc (ix1 q)).trans ?_
  show ∑ k : Fin 32, p (h.lift (ix1 q) k) = _
  refine Finset.sum_congr rfl fun k _ => congrArg p (funext fun a => Fin.ext ?_)
  match a with
  | ⟨0, _⟩ => rfl
  | ⟨1, _⟩ => rfl

/-- The 32×256 by 256×2048 product into zero: Σ_d l(k,d) · r(d,q). -/
theorem prodUtZ_apply {φ₁ φ₂ : FTy} (l : FVec Ideal S32x256 φ₁) (r : FVec Ideal S256x2048 φ₂) (k : Fin 32) (q : Fin 2048) :
    matmul dot_S32x256_S256x2048_S32x2048_1_0_0_1_n_n none l r (constant S32x2048 .f32 0x00000000#32) (ix2 k q)
      = ∑ d : Fin 256, l (ix2 k d) * r (ix2 d q) :=
  Cert.Matmul.matmul_plain_apply none l r k q

/-- The 256×32 by 32×2048 product into zero: Σₖ l(r,k) · x(k,q). -/
theorem prodU_apply {φ₁ φ₂ : FTy} (l : FVec Ideal S256x32 φ₁) (x : FVec Ideal S32x2048 φ₂) (r : Fin 256) (q : Fin 2048) :
    matmul dot_S256x32_S32x2048_S256x2048_1_0_0_1_n_n none l x (constant S256x2048 .f32 0x00000000#32) (ix2 r q)
      = ∑ k : Fin 32, l (ix2 r k) * x (ix2 k q) :=
  Cert.Matmul.matmul_plain_apply none l x r q

/-- The row of column sums, broadcast down the 256 signal rows, read at (r, q). -/
theorem sumRow_apply (s : FVec Ideal S2048 .f32) (hc : S2048.ShapeCasts S1x2048) (hb : S1x2048.Broadcasts S256x2048)
    (r : Fin 256) (q : Fin 2048) :
    broadcastTo S256x2048 (shapeCast S1x2048 s hc) hb (ix2 r q) = s (ix1 q) :=
  (broadcastTo_1b_ab_apply (shapeCast S1x2048 s hc) hb r q).trans (shapeCast_a_1a_apply s hc 0 q)

/-- THE TILE'S SIGNAL ROWS: what the body stores at (r, q), from the loaded signal rows z, coefficient rows p, and the
    three resident operands u, ut, ua. -/
theorem pay_apply (z : FVec Ideal S256x2048 .f32) (p : FVec Ideal S32x2048 .f32) (u : FVec Ideal S256x32 .f32)
    (ut : FVec Ideal S32x256 .f32) (ua : FVec Ideal S256x32 .f32) (r : Fin 256) (q : Fin 2048) :
    k0_pay1 (F := Ideal) z p u ut ua (ix2 r q)
      = z (ix2 r q) * (∑ k : Fin 32, p (ix2 k q))
        - ∑ k : Fin 32, u (ix2 r k) * ((∑ d : Fin 256, ut (ix2 k d) * z (ix2 d q)) * p (ix2 k q))
        + ∑ k : Fin 32, ua (ix2 r k) * p (ix2 k q) := by
  unfold k0_pay1
  simp only [shapeCast_self]
  show (z (ix2 r q) * broadcastTo S256x2048 (shapeCast S1x2048 (multiReduction .add [0] S2048 p 0x00000000#32 _ _ _) _) _ (ix2 r q)
      - matmul dot_S256x32_S32x2048_S256x2048_1_0_0_1_n_n none u
          (fun j => matmul dot_S32x256_S256x2048_S32x2048_1_0_0_1_n_n none ut z (constant S32x2048 .f32 0x00000000#32) j * p j)
          (constant S256x2048 .f32 0x00000000#32) (ix2 r q))
      + matmul dot_S256x32_S32x2048_S256x2048_1_0_0_1_n_n none ua p (constant S256x2048 .f32 0x00000000#32) (ix2 r q) = _
  refine congrArg₂ (· + ·) (congrArg₂ (· - ·) (congrArg (z (ix2 r q) * ·) ?_) ?_) ?_
  · exact (sumRow_apply _ _ _ r q).trans (colSum_apply p _ _ _ q)
  · exact (prodU_apply (φ₁ := .f32) (φ₂ := .f32) u _ r q).trans (Finset.sum_congr rfl fun k _ =>
      congrArg (u (ix2 r k) * ·) (congrArg (· * p (ix2 k q)) (prodUtZ_apply (φ₁ := .f32) (φ₂ := .f32) ut z k q)))
  · exact prodU_apply (φ₁ := .f32) (φ₂ := .f32) ua p r q

end Cert.KernelIdeal.Tile

end
-- ==== Proof.StackSpec.lean ====
/-
  The stacked result as one function of its arguments.

  The input stacks 256 signal rows z over 32 coefficient rows p, column by column.  With U a 256×32 factor, T a 32×256
  operand (the factor's transpose, where it is used) and A a 256×32 operand (the factor with column k scaled by α(k)),
  the result keeps the coefficient rows and replaces signal row r, at column q, by

      z(r,q) · (Σₖ p(k,q))  −  Σₖ U(r,k) · ((Σ_d T(k,d) · z(d,q)) · p(k,q))  +  Σₖ A(r,k) · p(k,q).

  Every entry of column q of the result depends on column q of the input alone, so the same formula describes one tile
  of 2048 columns and the whole array of 262144: the number of columns is a parameter.
-/
import Idealize.ShloMosaic.PureOps.Ideal.Laws
import Idealize.ShloMosaic.Lib.ValueIdx

noncomputable section

namespace Cert.Stacked

open Idealize.ShloMosaic Idealize.ShloMosaic.ValueIdx

/-- Signal row r of the stacked array. -/
abbrev sigRow (r : Fin 256) : Fin 288 := ⟨r.val, by omega⟩
/-- Coefficient row k of the stacked array, below the 256 signal rows. -/
abbrev coefRow (k : Fin 32) : Fin 288 := ⟨256 + k.val, by omega⟩

/-- The new signal row r at column q. -/
def mixAt {N : Nat} (x : (⟨2, ![288, N]⟩ : Shape).Idx → EReal) (u : (⟨2, ![256, 32]⟩ : Shape).Idx → EReal)
    (ut : (⟨2, ![32, 256]⟩ : Shape).Idx → EReal) (ua : (⟨2, ![256, 32]⟩ : Shape).Idx → EReal) (r : Fin 256) (q : Fin N) : EReal :=
  x (ix2 (sigRow r) q) * (∑ k : Fin 32, x (ix2 (coefRow k) q))
    - ∑ k : Fin 32, u (ix2 r k) * ((∑ d : Fin 256, ut (ix2 k d) * x (ix2 (sigRow d) q)) * x (ix2 (coefRow k) q))
    + ∑ k : Fin 32, ua (ix2 r k) * x (ix2 (coefRow k) q)

/-- The stacked result: new signal rows above, the coefficient rows kept below. -/
def stacked {N : Nat} (x : (⟨2, ![288, N]⟩ : Shape).Idx → EReal) (u : (⟨2, ![256, 32]⟩ : Shape).Idx → EReal)
    (ut : (⟨2, ![32, 256]⟩ : Shape).Idx → EReal) (ua : (⟨2, ![256, 32]⟩ : Shape).Idx → EReal) :
    (⟨2, ![288, N]⟩ : Shape).Idx → EReal :=
  fun j => if h : (j 0).val < 256 then mixAt x u ut ua ⟨(j 0).val, h⟩ ⟨(j 1).val, (j 1).isLt⟩ else x j

/-- On a signal row the stacked result is the mixed entry. -/
theorem stacked_sig {N : Nat} (x : (⟨2, ![288, N]⟩ : Shape).Idx → EReal) (u ua : (⟨2, ![256, 32]⟩ : Shape).Idx → EReal)
    (ut : (⟨2, ![32, 256]⟩ : Shape).Idx → EReal) (r : Fin 256) (q : Fin N) :
    stacked x u ut ua (ix2 (sigRow r) q) = mixAt x u ut ua r q := by
  unfold stacked
  rw [dif_pos (show ((ix2 (sigRow r) q : (⟨2, ![288, N]⟩ : Shape).Idx) 0).val < 256 from r.isLt)]
  rfl

/-- On a coefficient row it is the input. -/
theorem stacked_coef {N : Nat} (x : (⟨2, ![288, N]⟩ : Shape).Idx → EReal) (u ua : (⟨2, ![256, 32]⟩ : Shape).Idx → EReal)
    (ut : (⟨2, ![32, 256]⟩ : Shape).Idx → EReal) (k : Fin 32) (q : Fin N) :
    stacked x u ut ua (ix2 (coefRow k) q) = x (ix2 (coefRow k) q) := by
  unfold stacked
  rw [dif_neg (show ¬ ((ix2 (coefRow k) q : (⟨2, ![288, N]⟩ : Shape).Idx) 0).val < 256 from by
    show ¬ 256 + k.val < 256; omega)]

/-- Every index of the stacked array is on a signal row or on a coefficient row. -/
theorem row_cases {N : Nat} (j : (⟨2, ![288, N]⟩ : Shape).Idx) :
    (∃ (r : Fin 256) (q : Fin N), j = ix2 (sigRow r) q) ∨ (∃ (k : Fin 32) (q : Fin N), j = ix2 (coefRow k) q) := by
  have h0 : (j 0).val < 288 := (j 0).isLt
  by_cases h : (j 0).val < 256
  · refine Or.inl ⟨⟨(j 0).val, h⟩, ⟨(j 1).val, (j 1).isLt⟩, ?_⟩
    funext a; match a with | ⟨0, _⟩ => rfl | ⟨1, _⟩ => rfl
  · refine Or.inr ⟨⟨(j 0).val - 256, by omega⟩, ⟨(j 1).val, (j 1).isLt⟩, ?_⟩
    funext a
    match a with
    | ⟨0, _⟩ => exact Fin.ext (show (j 0).val = 256 + ((j 0).val - 256) by omega)
    | ⟨1, _⟩ => rfl

/-- COLUMN q OF THE RESULT DEPENDS ON COLUMN q OF THE INPUT ALONE: if column q of x is column q' of x', the stacked
    results agree there, row by row. -/
theorem stacked_congr_col {N N' : Nat} (x : (⟨2, ![288, N]⟩ : Shape).Idx → EReal) (x' : (⟨2, ![288, N']⟩ : Shape).Idx → EReal)
    (u ua : (⟨2, ![256, 32]⟩ : Shape).Idx → EReal) (ut : (⟨2, ![32, 256]⟩ : Shape).Idx → EReal) (q : Fin N) (q' : Fin N')
    (hx : ∀ a : Fin 288, x (ix2 a q) = x' (ix2 a q')) (a : Fin 288) :
    stacked x u ut ua (ix2 a q) = stacked x' u ut ua (ix2 a q') := by
  rcases row_cases (ix2 a q : (⟨2, ![288, N]⟩ : Shape).Idx) with ⟨r, q₀, e⟩ | ⟨k, q₀, e⟩
  · have ha : a = sigRow r := congrFun e 0
    subst ha
    rw [stacked_sig, stacked_sig]
    unfold mixAt
    simp only [hx]
  · have ha : a = coefRow k := congrFun e 0
    subst ha
    rw [stacked_coef, stacked_coef, hx]

end Cert.Stacked

end
-- ==== Proof.TileOut.lean ====
/-
  What the body leaves in the output tile.

  The body stores twice into the 288×2048 output tile: the 256 new signal rows through the rectangle at row 0, and the
  32 coefficient rows, copied from the input tile, through the rectangle at row 256.  The two rectangles tile the
  output, so the tile ends holding the stacked result of the input tile: nothing of what it held before survives.
-/
import proofs.«144846_j65944927863381_1_alg».proof.Proof.Gen.KernelIdeal.Frame
import proofs.«144846_j65944927863381_1_alg».proof.Proof.TileValue
import proofs.«144846_j65944927863381_1_alg».proof.Proof.StackSpec

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Tactic Idealize.ShloMosaic.ValueIdx
open Cert.Stacked (stacked mixAt sigRow coefRow)

theorem zeroOff : (![0, 0] : Fin 2 → Nat) = fun _ => 0 := funext fun a => by fin_cases a <;> rfl

/-- The tile's first 256 rows, read through the rectangle at row 0. -/
theorem ld_sig (x0 : Vec Ideal S288x2048 .f32) (inb) (r : Fin 256) (q : Fin 2048) :
    View.ld x0 (Rect.unit (s := S288x2048) ![0, 0] ![256, 2048] inb) (ix2 r q) = x0 (ix2 (sigRow r) q) :=
  congrArg x0 (funext fun a => Fin.ext (by
    match a with
    | ⟨0, _⟩ => show 0 + 1 * r.val = r.val; omega
    | ⟨1, _⟩ => show 0 + 1 * q.val = q.val; omega))

/-- The tile's last 32 rows, read through the rectangle at row 256. -/
theorem ld_coef (x0 : Vec Ideal S288x2048 .f32) (inb) (k : Fin 32) (q : Fin 2048) :
    View.ld x0 (Rect.unit (s := S288x2048) ![256, 0] ![32, 2048] inb) (ix2 k q) = x0 (ix2 (coefRow k) q) :=
  congrArg x0 (funext fun a => Fin.ext (by
    match a with
    | ⟨0, _⟩ => show 256 + 1 * k.val = 256 + k.val; omega
    | ⟨1, _⟩ => show 0 + 1 * q.val = q.val; omega))

/-- THE OUTPUT TILE after the body, whatever staging memrefs it ran on: the stacked result of the input tile x0 with the
    three resident operands. -/
theorem out_tile (c : Dev nD) (i : grid0.Coords) (arg1 : Memref sig .tc .vmem S288x2048 .f32) (harg1 : arg1.IsWhole) (arg2 : Memref sig .tc .vmem S256x32 .f32) (harg2 : arg2.IsWhole) (arg3 : Memref sig .tc .vmem S32x256 .f32) (harg3 : arg3.IsWhole) (arg4 : Memref sig .tc .vmem S256x32 .f32) (harg4 : arg4.IsWhole) (arg5 : Memref sig .tc .vmem S288x2048 .f32) (harg5 : arg5.IsWhole)
    (x0 : Vec Ideal S288x2048 .f32) (x1 : Vec Ideal S256x32 .f32) (x2 : Vec Ideal S32x256 .f32) (x3 : Vec Ideal S256x32 .f32) :
    out0_A_4 (F := Ideal) c i arg1 harg1 arg2 harg2 arg3 harg3 arg4 harg4 arg5 harg5 x0 x1 x2 x3 = stacked (N := 2048) x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (stacked (N := 2048) x0 x1 x2 x3) _ ?_ y (cover0_A_4 c i arg1 harg1 arg2 harg2 arg3 harg3 arg4 harg4 arg5 harg5 x0 x1 x2 x3 y)
  unfold kernelRun0_A
  dsimp only
  sl_unfold_words
  simp only [View.readAt_eq_ld, Memref.IsWhole.read_unread, View.ld_unit_zero (S := S256x32) zeroOff,
    View.ld_unit_zero (S := S32x256) zeroOff]
  refine List.forall_mem_cons.2 ⟨?_, List.forall_mem_cons.2 ⟨?_, fun _ h => absurd h List.not_mem_nil⟩⟩
  · -- the coefficient rows, copied
    intro x
    dsimp only at x ⊢
    obtain ⟨k, q, rfl⟩ : ∃ (k : Fin 32) (q : Fin 2048), x = ix2 k q := ⟨x 0, x 1, eq_ix2 x⟩
    have e : (Rect.unit (s := S288x2048) ![256, 0] ![32, 2048] inb_S288x2048_S32x2048_256_0).emb (ix2 k q)
        = ix2 (coefRow k) q := funext fun a => Fin.ext (by
      match a with
      | ⟨0, _⟩ => show 256 + 1 * k.val = 256 + k.val; omega
      | ⟨1, _⟩ => show 0 + 1 * q.val = q.val; omega)
    rw [e, Cert.Stacked.stacked_coef]
    exact ld_coef x0 _ k q
  · -- the new signal rows
    intro x
    dsimp only at x ⊢
    obtain ⟨r, q, rfl⟩ : ∃ (r : Fin 256) (q : Fin 2048), x = ix2 r q := ⟨x 0, x 1, eq_ix2 x⟩
    have e : (Rect.unit (s := S288x2048) ![0, 0] ![256, 2048] inb_S288x2048_S256x2048_0_0).emb (ix2 r q)
        = ix2 (sigRow r) q := funext fun a => Fin.ext (by
      match a with
      | ⟨0, _⟩ => show 0 + 1 * r.val = r.val; omega
      | ⟨1, _⟩ => show 0 + 1 * q.val = q.val; omega)
    have hz : View.ld x0 (Rect.unit (s := S288x2048) ![0, 0] ![256, 2048] inb_S288x2048_S256x2048_0_0)
        = fun j : (⟨2, ![256, 2048]⟩ : Shape).Idx => x0 (ix2 (sigRow (j 0)) (j 1)) :=
      funext fun j => (congrArg _ (eq_ix2 j)).trans (ld_sig x0 _ (j 0) (j 1))
    have hp : View.ld x0 (Rect.unit (s := S288x2048) ![256, 0] ![32, 2048] inb_S288x2048_S32x2048_256_0)
        = fun j : (⟨2, ![32, 2048]⟩ : Shape).Idx => x0 (ix2 (coefRow (j 0)) (j 1)) :=
      funext fun j => (congrArg _ (eq_ix2 j)).trans (ld_coef x0 _ (j 0) (j 1))
    rw [e, Cert.Stacked.stacked_sig, hz, hp]
    exact pay_apply _ _ x1 x2 x3 r q

end Cert.KernelIdeal.Tile

end
-- ==== Proof.WholeValue.lean ====
/-
  The kernel's result array.

  The grid has 128 points; point t stages columns [2048·t, 2048·t + 2048) of the stacked input, all 288 rows, and the
  three resident operands whole: the factor U, its transpose (a host operation before the call) and the factor with column
  k scaled by α(k) (two broadcasts and a product before the call).  What point t writes back is the stacked result of
  its tile; since column q of the result depends on column q of the input alone, that is tile t of the stacked result of
  the whole input.  The 128 tiles cover the array, so the array ends holding that result.
-/
import proofs.«144846_j65944927863381_1_alg».proof.Proof.Gen.KernelIdeal.Value
import proofs.«144846_j65944927863381_1_alg».proof.Proof.TileOut
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Stacked (stacked)

variable (m : (ℓ : Loc nD τ sig) → Buf (Elt Ideal) ℓ) (ρ : Dev nD → PrngReg)

/-- The factor's transpose, as the host forms it. -/
abbrev transposed (u : FVec Ideal S256x32 .f32) : FVec Ideal S32x256 .f32 :=
  transpose S32x256 [1, 0] u transposes_S256x32_S32x256_1_0

/-- The factor with column k scaled by α(k), as the host forms it. -/
abbrev scaled (u : FVec Ideal S256x32 .f32) (al : FVec Ideal S32 .f32) : FVec Ideal S256x32 .f32 :=
  mulf u (broadcastInDim S256x32 ![0, 1] bcast_S1x32_S256x32_0_1 (broadcastInDim S1x32 ![1] bcast_S32_S1x32_1 al))

/-- THE RESULT: the stacked formula of the three arguments. -/
def result (x : FVec Ideal S288x262144 .f32) (u : FVec Ideal S256x32 .f32) (al : FVec Ideal S32 .f32) : FVec Ideal S288x262144 .f32 :=
  stacked (N := 262144) x u (transposed u) (scaled u al)

/-! ## The operands the host writes before the call -/

theorem V_transposed (c : Dev nD) :
    (V m c main_v0 : FVec Ideal S32x256 .f32) = transposed (m ((c : Thread nD τ).loc main_arg1)) := by
  dsimp only [Gen.V, Gen.hostOps0]; after_results

theorem V_scaled (c : Dev nD) :
    (V m c main_v3 : FVec Ideal S256x32 .f32)
      = scaled (m ((c : Thread nD τ).loc main_arg1)) (m ((c : Thread nD τ).loc main_arg2)) := by
  dsimp only [Gen.V, Gen.hostOps0]; after_results; first | done | rfl

/-! ## The index maps over the grid -/

/-- The input and output tiles move along the columns with the point; the resident operands stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Column q of tile t is column 2048·t + q of the array. -/
def col (t : Fin cfg0.N) (q : Fin 2048) : Fin 262144 :=
  ⟨t.val * 2048 + q.val, by have ht : t.val < 128 := lt_of_lt_of_eq t.isLt N_0; have := q.isLt; omega⟩

/-- Input tile t, entry (a, q): the stacked input at (a, 2048·t + q). -/
theorem tile_apply (c : Dev nD) (t : Fin cfg0.N) (a : Fin 288) (q : Fin 2048) :
    (iblk m c 0 t : Vec Ideal S288x2048 .f32) (ix2 a q) = m ((c : Thread nD τ).loc main_arg0) (ix2 a (col t q)) := by
  obtain ⟨e0, e1, -⟩ := idx_facts t
  rw [← V_main_arg0 m c]
  show V m c main_arg0 (((cfg0.win 0).blk t).view.emb (ix2 a q)) = _
  refine congrArg _ (funext fun b => Fin.ext ?_)
  match b with
  | ⟨0, _⟩ => show win0_0.index t (0 : Fin 2) * 288 + 1 * a.val = a.val; omega
  | ⟨1, _⟩ => show win0_0.index t (1 : Fin 2) * 2048 + 1 * q.val = t.val * 2048 + q.val; omega

/-- The factor's block at every point is the factor. -/
theorem factor_eq (c : Dev nD) (t : Fin cfg0.N) :
    (iblk m c 1 t : Vec Ideal S256x32 .f32) = m ((c : Thread nD τ).loc main_arg1) := by
  obtain ⟨-, -, e0, e1, -⟩ := idx_facts t
  rw [← V_main_arg1 m c]
  funext y
  show V m c main_arg1 (((cfg0.win 1).blk t).view.emb y) = V m c main_arg1 y
  refine congrArg _ (funext fun b => Fin.ext ?_)
  match b with
  | ⟨0, _⟩ => show win0_1.index t (0 : Fin 2) * 256 + 1 * (y 0).val = (y 0).val; omega
  | ⟨1, _⟩ => show win0_1.index t (1 : Fin 2) * 32 + 1 * (y 1).val = (y 1).val; omega

/-- The transposed factor's block at every point is the transposed factor. -/
theorem transposed_eq (c : Dev nD) (t : Fin cfg0.N) :
    (iblk m c 2 t : Vec Ideal S32x256 .f32) = transposed (m ((c : Thread nD τ).loc main_arg1)) := by
  obtain ⟨-, -, -, -, e0, e1, -⟩ := idx_facts t
  rw [← V_transposed m c]
  funext y
  show V m c main_v0 (((cfg0.win 2).blk t).view.emb y) = V m c main_v0 y
  refine congrArg _ (funext fun b => Fin.ext ?_)
  match b with
  | ⟨0, _⟩ => show win0_2.index t (0 : Fin 2) * 32 + 1 * (y 0).val = (y 0).val; omega
  | ⟨1, _⟩ => show win0_2.index t (1 : Fin 2) * 256 + 1 * (y 1).val = (y 1).val; omega

/-- The scaled factor's block at every point is the scaled factor. -/
theorem scaled_eq (c : Dev nD) (t : Fin cfg0.N) :
    (iblk m c 3 t : Vec Ideal S256x32 .f32)
      = scaled (m ((c : Thread nD τ).loc main_arg1)) (m ((c : Thread nD τ).loc main_arg2)) := by
  obtain ⟨-, -, -, -, -, -, e0, e1, -⟩ := idx_facts t
  rw [← V_scaled m c]
  funext y
  show V m c main_v3 (((cfg0.win 3).blk t).view.emb y) = V m c main_v3 y
  refine congrArg _ (funext fun b => Fin.ext ?_)
  match b with
  | ⟨0, _⟩ => show win0_3.index t (0 : Fin 2) * 256 + 1 * (y 0).val = (y 0).val; omega
  | ⟨1, _⟩ => show win0_3.index t (1 : Fin 2) * 32 + 1 * (y 1).val = (y 1).val; omega

/-! ## What a point writes back -/

/-- The stacked result of tile t, at (a, q), is the stacked result of the whole input at (a, 2048·t + q). -/
theorem tile_result (c : Dev nD) (t : Fin cfg0.N) (a : Fin 288) (q : Fin 2048) :
    stacked (N := 2048) (iblk m c 0 t) (iblk m c 1 t) (iblk m c 2 t) (iblk m c 3 t) (ix2 a q)
      = result (m ((c : Thread nD τ).loc main_arg0)) (m ((c : Thread nD τ).loc main_arg1)) (m ((c : Thread nD τ).loc main_arg2))
          (ix2 a (col t q)) := by
  rw [factor_eq m c t, transposed_eq m c t, scaled_eq m c t]
  unfold result
  exact Cert.Stacked.stacked_congr_col _ _ _ _ _ q (col t q) (fun a' => tile_apply m c t a' q) a

/-- WHAT POINT t WRITES BACK is tile t of the result. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1)) (m ((c : Thread nD τ).loc main_arg2))) := by
  rw [Value.flushed4_A, Tile.out_tile]
  obtain ⟨-, -, -, -, -, -, -, -, e0, e1⟩ := idx_facts t
  funext y
  show stacked (N := 2048) (iblk m c 0 t) (iblk m c 1 t) (iblk m c 2 t) (iblk m c 3 t) y
    = result (m ((c : Thread nD τ).loc main_arg0)) (m ((c : Thread nD τ).loc main_arg1)) (m ((c : Thread nD τ).loc main_arg2))
        (((cfg0.win 4).blk t).view.emb y)
  refine (congrArg _ (eq_ix2 y)).trans ((tile_result m c t (y 0) (y 1)).trans (congrArg _ (funext fun b => Fin.ext ?_)))
  match b with
  | ⟨0, _⟩ => show (y 0).val = win0_4.index t (0 : Fin 2) * 288 + 1 * (y 0).val; omega
  | ⟨1, _⟩ => show t.val * 2048 + (y 1).val = win0_4.index t (1 : Fin 2) * 2048 + 1 * (y 1).val; omega

/-! ## The tiles cover the array -/

/-- An index of the array is in point t's tile iff each coordinate is in the tile's range on its axis. -/
theorem mem_tile (t : Fin cfg0.N) (i : S288x262144.Idx) :
    i ∈ ((cfg0.win 4).blk t).view.set ↔ ∀ a : Fin 2, win0_4.index t a * S288x2048.size a ≤ (i a).val
      ∧ (i a).val < win0_4.index t a * S288x2048.size a + S288x2048.size a := by
  show i ∈ ((View.whole main_v4).slice (win0_4.rect t)).set ↔ _
  rw [View.set_slice_whole, Rect.mem_set_unit]
  exact Iff.rfl

/-- Column j lies in tile j / 2048. -/
theorem cover (i : S288x262144.Idx) :
    ∃ t : Fin cfg0.N, (cfg0.win 4).flush t = true ∧ i ∈ ((cfg0.win 4).blk t).view.set := by
  have h0 : (i 0).val < 288 := (i 0).isLt
  have h1 : (i 1).val < 262144 := (i 1).isLt
  have hN : cfg0.N = 128 := N_0
  obtain ⟨t, ht⟩ : ∃ t : Fin cfg0.N, t.val = (i 1).val / 2048 := ⟨⟨(i 1).val / 2048, by rw [hN]; omega⟩, rfl⟩
  obtain ⟨-, -, -, -, -, -, -, -, e0, e1⟩ := idx_facts t
  refine ⟨t, flush0_4 t, ?_⟩
  rw [mem_tile]
  intro a
  match a with
  | ⟨0, _⟩ =>
    show win0_4.index t (0 : Fin 2) * 288 ≤ (i 0).val ∧ (i 0).val < win0_4.index t (0 : Fin 2) * 288 + 288
    omega
  | ⟨1, _⟩ =>
    show win0_4.index t (1 : Fin 2) * 2048 ≤ (i 1).val ∧ (i 1).val < win0_4.index t (1 : Fin 2) * 2048 + 2048
    omega

/-! ## The array after the run -/

/-- THE ARRAY after the run is the result of the arguments. -/
theorem final (c : Dev nD) : (dats m 0 c).arrAt 4 cfg0.N
    = result (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run: it ends with the result array at the stacked formula of the arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference, read at an index.

  The reference slices the stacked array into signal rows and coefficient rows, forms Uᵗ z, the column sums of the
  coefficients, the two 256×32 by 32×N products and their combination, and joins the new signal rows back on top of the
  coefficient rows.  Read at an index over the extended reals — a host product as the sum over its contracted axis, the
  host sum from zero as the plain sum — its result is the stacked formula with T the transposed factor and A the scaled
  factor, exactly as the reference builds them.
-/
import proofs.«144846_j65944927863381_1_alg».proof.Proof.Gen.ReferenceIdeal.Read
import proofs.«144846_j65944927863381_1_alg».proof.Proof.StackSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Stacked (stacked mixAt sigRow coefRow)

/-! ## The generated index maps at coordinates -/

theorem idx_v0 (r : Fin 256) (q : Fin 262144) : idx_main_v0 (ix2 r q) = ix2 (sigRow r) q :=
  funext fun a => Fin.ext (by match a with | ⟨0, _⟩ => rfl | ⟨1, _⟩ => rfl)
theorem idx_v1 (k : Fin 32) (q : Fin 262144) : idx_main_v1 (ix2 k q) = ix2 (coefRow k) q :=
  funext fun a => Fin.ext (by match a with | ⟨0, _⟩ => rfl | ⟨1, _⟩ => rfl)
theorem lidx_v3 (k : Fin 32) (q : Fin 262144) (d : Fin 256) : lidx_main_v3 (ix2 k q) d = ix2 k d :=
  funext fun a => Fin.ext (by match a with | ⟨0, _⟩ => rfl | ⟨1, _⟩ => rfl)
theorem ridx_v3 (k : Fin 32) (q : Fin 262144) (d : Fin 256) : ridx_main_v3 (ix2 k q) d = ix2 d q :=
  funext fun a => Fin.ext (by match a with | ⟨0, _⟩ => rfl | ⟨1, _⟩ => rfl)
theorem idx_v4 (q : Fin 262144) (k : Fin 32) : idx_main_v4 (ix1 q) k = ix2 k q :=
  funext fun a => Fin.ext (by match a with | ⟨0, _⟩ => rfl | ⟨1, _⟩ => rfl)
theorem idx_v5 (u : Fin 1) (q : Fin 262144) : idx_main_v5 (ix2 u q) = ix1 q :=
  funext fun a => Fin.ext (by match a with | ⟨0, _⟩ => rfl)
theorem idx_v6 (r : Fin 256) (q : Fin 262144) : idx_main_v6 (ix2 r q) = ix2 (0 : Fin 1) q :=
  funext fun a => Fin.ext (by match a with | ⟨0, _⟩ => rfl | ⟨1, _⟩ => rfl)
theorem lidx_v9 (r : Fin 256) (q : Fin 262144) (k : Fin 32) : lidx_main_v9 (ix2 r q) k = ix2 r k :=
  funext fun a => Fin.ext (by match a with | ⟨0, _⟩ => rfl | ⟨1, _⟩ => rfl)
theorem ridx_v9 (r : Fin 256) (q : Fin 262144) (k : Fin 32) : ridx_main_v9 (ix2 r q) k = ix2 k q :=
  funext fun a => Fin.ext (by match a with | ⟨0, _⟩ => rfl | ⟨1, _⟩ => rfl)
theorem lidx_v14 (r : Fin 256) (q : Fin 262144) (k : Fin 32) : lidx_main_v14 (ix2 r q) k = ix2 r k :=
  funext fun a => Fin.ext (by match a with | ⟨0, _⟩ => rfl | ⟨1, _⟩ => rfl)
theorem ridx_v14 (r : Fin 256) (q : Fin 262144) (k : Fin 32) : ridx_main_v14 (ix2 r q) k = ix2 k q :=
  funext fun a => Fin.ext (by match a with | ⟨0, _⟩ => rfl | ⟨1, _⟩ => rfl)

/-! ## The new signal rows -/

/-- The reference's new signal row r at column q is the mixed entry, with T and A the reference's own transposed and
    scaled factor. -/
theorem sig_apply (x0 : (⟨S288x262144, .f32⟩ : BufTy).Contents (Elt Ideal)) (x1 : (⟨S256x32, .f32⟩ : BufTy).Contents (Elt Ideal))
    (x2 : (⟨S32, .f32⟩ : BufTy).Contents (Elt Ideal)) (r : Fin 256) (q : Fin 262144) :
    val_main_v15 (F := Ideal) x0 x1 x2 (ix2 r q)
      = mixAt (N := 262144) x0 x1 (val_main_v2 (F := Ideal) x1) (val_main_v13 (F := Ideal) x1 x2) r q := by
  rw [val_main_v15_apply, val_main_v10_apply, val_main_v7_apply, val_main_v0_apply, val_main_v6_apply, idx_v6,
    val_main_v5_apply, idx_v5, val_main_v4_apply, val_main_v9_apply, val_main_v14_apply]
  unfold mixAt
  simp only [val_main_v8_apply, val_main_v3_apply, val_main_v1_apply, val_main_v0_apply, val_main_cst_apply,
    idx_v0, idx_v1, lidx_v3, ridx_v3, idx_v4, lidx_v9, ridx_v9, lidx_v14, ridx_v14,
    Ideal.addf_def, Ideal.subf_def, Ideal.mulf_def, Ideal.ofBits_def, Ideal.ofBits_zero_f32, zero_add]

/-! ## The whole result -/

/-- THE REFERENCE'S RESULT is the stacked formula of its arguments. -/
theorem result_eq (x0 : (⟨S288x262144, .f32⟩ : BufTy).Contents (Elt Ideal)) (x1 : (⟨S256x32, .f32⟩ : BufTy).Contents (Elt Ideal))
    (x2 : (⟨S32, .f32⟩ : BufTy).Contents (Elt Ideal)) :
    val_main_v18 (F := Ideal) x0 x1 x2
      = stacked (N := 262144) x0 x1 (val_main_v2 (F := Ideal) x1) (val_main_v13 (F := Ideal) x1 x2) := by
  funext j
  unfold val_main_v18
  rcases Cert.Stacked.row_cases j with ⟨r, q, rfl⟩ | ⟨k, q, rfl⟩
  · rw [Cert.Stacked.stacked_sig]
    refine (concatenate_pair_apply_left (t := S288x262144) (s₁ := S256x262144) (s₂ := S32x262144) (0 : Fin 2) _ _ _ _ rfl
      (ix2 r q) (fun b => ?_)).trans (sig_apply x0 x1 x2 r q)
    match b with
    | ⟨0, _⟩ => rfl
    | ⟨1, _⟩ => rfl
  · rw [Cert.Stacked.stacked_coef]
    refine (concatenate_pair_apply_right (t := S288x262144) (s₁ := S256x262144) (s₂ := S32x262144) (0 : Fin 2) _ _ _ _ rfl rfl
      (ix2 k q) (fun b hb => ?_) ?_).trans ?_
    · match b with
      | ⟨0, _⟩ => exact absurd rfl hb
      | ⟨1, _⟩ => rfl
    · show k.val + 256 = 256 + k.val
      omega
    · rw [val_main_v1_apply, idx_v1]

end Cert.ReferenceIdeal.RefValue

end
-- ==== Proof.lean ====
/-
  The kernel and its reference compute the same stacked array.

  The argument stacks 256 signal rows z over 32 coefficient rows p, 262144 columns wide; U is a 256×32 factor and α a
  vector of 32 scales.  Both programs keep the coefficient rows and replace signal row r, at column q, by

      z(r,q) · (Σₖ p(k,q))  −  Σₖ U(r,k) · ((Σ_d U(d,k) · z(d,q)) · p(k,q))  +  Σₖ (U(r,k) · α(k)) · p(k,q).

  The reference forms this from whole arrays: two slices, the transposed factor times z, the column sums of p, two more
  products, and a concatenation.  The kernel forms the transposed and the scaled factor on the host exactly as the
  reference does, then walks the columns in 128 tiles of 2048, computing the same expression tile by tile with its
  operands narrowed to bf16 in front of each product — the identity on the extended reals — and each product taken into a
  zero accumulator.  Column q of the result depends on column q of the input alone, so the tiles' results are the tiles
  of the whole result; and a sum over the contracted index is the same sum whichever program takes it.  No law beyond
  the commutativity of a finite sum is used, so the finiteness of the inputs is never opened.

  The three frames are the generated ones (the reference's is its run with the result dropped); the idealization
  rewrote nothing, so there is nothing to preserve.
-/
import proofs.«144846_j65944927863381_1_alg».proof.Defs
import proofs.«144846_j65944927863381_1_alg».proof.Proof.Gen.Kernel
import proofs.«144846_j65944927863381_1_alg».proof.Proof.Gen.Kernel.Skeleton
import proofs.«144846_j65944927863381_1_alg».proof.Proof.Gen.Kernel.Launch
import proofs.«144846_j65944927863381_1_alg».proof.Proof.Gen.Kernel.Points
import proofs.«144846_j65944927863381_1_alg».proof.Proof.Gen.Kernel.Frame
import proofs.«144846_j65944927863381_1_alg».proof.Proof.Gen.KernelIdeal
import proofs.«144846_j65944927863381_1_alg».proof.Proof.Gen.KernelIdeal.Skeleton
import proofs.«144846_j65944927863381_1_alg».proof.Proof.Gen.KernelIdeal.Launch
import proofs.«144846_j65944927863381_1_alg».proof.Proof.Gen.KernelIdeal.Points
import proofs.«144846_j65944927863381_1_alg».proof.Proof.Gen.KernelIdeal.Frame
import proofs.«144846_j65944927863381_1_alg».proof.Proof.Gen.ReferenceIdeal
import proofs.«144846_j65944927863381_1_alg».proof.Proof.Gen.Pre_finite_inputs
import proofs.«144846_j65944927863381_1_alg».proof.Proof.Gen.KernelIdeal.Value
import proofs.«144846_j65944927863381_1_alg».proof.Proof.Gen.ReferenceIdeal.Run
import proofs.«144846_j65944927863381_1_alg».proof.Proof.Gen.ReferenceIdeal.Read
import proofs.«144846_j65944927863381_1_alg».proof.Proof.WholeValue
import proofs.«144846_j65944927863381_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the stacked formula of the (agreeing) arguments: the kernel's by its tiles,
    the reference's read at an index. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _).trans ((Cert.ReferenceIdeal.RefValue.result_eq _ _ _).trans ?_)
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
